-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S3584x512 : Shape := ⟨2, ![3584, 512]⟩
abbrev S3584 : Shape := ⟨1, ![3584]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S3584x512 : S_.BroadcastsInDim S3584x512 (![] : Fin 0 → Fin S3584x512.rank)
  reducesTo_S3584x512_S_d0_1 : S3584x512.ReducesTo [0, 1] S_
  bcast_S_S3584 : S_.BroadcastsInDim S3584 (![] : Fin 0 → Fin S3584.rank)
  reducesTo_S3584_S_d0 : S3584.ReducesTo [0] S_

variable [Facts]

def fn_part1 {F : FTy → Type} [FloatOps F] (main_arg4 : FVec F S3584 .f32) (main_arg5 : FVec F S3584x512 .f32) (main_arg6 : FVec F S3584 .f32) (main_v13 : IVec S_ 1) (main_v16 : IVec S3584x512 1) : IVec S_ 1 :=
  let main_c_5 : IVec S_ 1 := constantI S_ 1 1#1
  let main_v17 : IVec S_ 1 := (fun x v => Host.reduce IntOp.andi x v reducesTo_S3584x512_S_d0_1 h_S_) main_v16 main_c_5
  let main_v18 : IVec S_ 1 := andi main_v13 main_v17
  let main_v19 : FVec F S3584 .f32 := Host.absf main_arg4
  let main_cst_6 : FVec F S_ .f32 := constant S_ .f32 0x7F800000#32
  let main_v20 : FVec F S3584 .f32 := broadcastInDim S3584 ![] bcast_S_S3584 main_cst_6
  let main_v21 : IVec S3584 1 := cmpf .olt main_v19 main_v20
  let main_c_7 : IVec S_ 1 := constantI S_ 1 1#1
  let main_v22 : IVec S_ 1 := (fun x v => Host.reduce IntOp.andi x v reducesTo_S3584_S_d0 h_S_) main_v21 main_c_7
  let main_v23 : IVec S_ 1 := andi main_v18 main_v22
  let main_v24 : FVec F S3584x512 .f32 := Host.absf main_arg5
  let main_cst_8 : FVec F S_ .f32 := constant S_ .f32 0x7F800000#32
  let main_v25 : FVec F S3584x512 .f32 := broadcastInDim S3584x512 ![] bcast_S_S3584x512 main_cst_8
  let main_v26 : IVec S3584x512 1 := cmpf .olt main_v24 main_v25
  let main_c_9 : IVec S_ 1 := constantI S_ 1 1#1
  let main_v27 : IVec S_ 1 := (fun x v => Host.reduce IntOp.andi x v reducesTo_S3584x512_S_d0_1 h_S_) main_v26 main_c_9
  let main_v28 : IVec S_ 1 := andi main_v23 main_v27
  let main_v29 : FVec F S3584 .f32 := Host.absf main_arg6
  let main_cst_10 : FVec F S_ .f32 := constant S_ .f32 0x7F800000#32
  let main_v30 : FVec F S3584 .f32 := broadcastInDim S3584 ![] bcast_S_S3584 main_cst_10
  let main_v31 : IVec S3584 1 := cmpf .olt main_v29 main_v30
  let main_c_11 : IVec S_ 1 := constantI S_ 1 1#1
  let main_v32 : IVec S_ 1 := (fun x v => Host.reduce IntOp.andi x v reducesTo_S3584_S_d0 h_S_) main_v31 main_c_11
  let main_v33 : IVec S_ 1 := andi main_v28 main_v32
  main_v33

def fn {F : FTy → Type} [FloatOps F] (main_arg0 : FVec F S16384x512 .f32) (main_arg1 : FVec F S16384x512 .f32) (main_arg2 : FVec F S16384x512 .f32) (main_arg3 : FVec F S3584x512 .f32) (main_arg4 : FVec F S3584 .f32) (main_arg5 : FVec F S3584x512 .f32) (main_arg6 : FVec F S3584 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S3584x512 .f32 := Host.absf main_arg3
  let main_cst_4 : FVec F S_ .f32 := constant S_ .f32 0x7F800000#32
  let main_v15 : FVec F S3584x512 .f32 := broadcastInDim S3584x512 ![] bcast_S_S3584x512 main_cst_4
  let main_v16 : IVec S3584x512 1 := cmpf .olt main_v14 main_v15
  fn_part1 (F := F) main_arg4 main_arg5 main_arg6 main_v13 main_v16
-- ==== Kernel.lean ====
abbrev S16384x512 : Shape := ⟨2, ![16384, 512]⟩
abbrev S3584x512 : Shape := ⟨2, ![3584, 512]⟩
abbrev S3584 : Shape := ⟨1, ![3584]⟩
abbrev S512x3584 : Shape := ⟨2, ![512, 3584]⟩
abbrev S1x3584 : Shape := ⟨2, ![1, 3584]⟩
abbrev S256x512 : Shape := ⟨2, ![256, 512]⟩
abbrev S256x3584 : Shape := ⟨2, ![256, 3584]⟩

abbrev nBuf : Space → Nat
  | .hbm => 16
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S3584x512, .f32⟩
  | .hbm, ⟨4, _⟩ => ⟨S3584, .f32⟩
  | .hbm, ⟨5, _⟩ => ⟨S3584x512, .f32⟩
  | .hbm, ⟨6, _⟩ => ⟨S3584, .f32⟩
  | .hbm, ⟨7, _⟩ => ⟨S512x3584, .f32⟩
  | .hbm, ⟨8, _⟩ => ⟨S512x3584, .f32⟩
  | .hbm, ⟨9, _⟩ => ⟨S1x3584, .f32⟩
  | .hbm, ⟨10, _⟩ => ⟨S1x3584, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x3584, .f32⟩
  | .local _ .vmem, ⟨7, _⟩ => ⟨S512x3584, .f32⟩
  | .local _ .vmem, ⟨8, _⟩ => ⟨S1x3584, .f32⟩
  | .local _ .vmem, ⟨9, _⟩ => ⟨S1x3584, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S3584x512_S512x3584_1_0 : S3584x512.Transposes [1, 0] S512x3584
  shapeCasts_S3584_S1x3584 : S3584.ShapeCasts S1x3584
  inb_S256x512_S256x512_0_0 : ∀ a, (![0, 0] : Fin 2 → Nat) a + S256x512.size a ≤ S256x512.size a
  h_S256x512 : 0 < S256x512.numel
  inb_S512x3584_S512x3584_0_0 : ∀ a, (![0, 0] : Fin 2 → Nat) a + S512x3584.size a ≤ S512x3584.size a
  h_S512x3584 : 0 < S512x3584.numel
  shapeCasts_S512x3584_S512x3584 : S512x3584.ShapeCasts S512x3584
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  broadcasts_S1x3584_S256x3584 : S1x3584.Broadcasts S256x3584
  slices_S256x3584_o0_0_S256x512 : S256x3584.Slices ![0, 0] S256x512
  slices_S256x3584_o0_512_S256x512 : S256x3584.Slices ![0, 512] S256x512
  slices_S256x3584_o0_1024_S256x512 : S256x3584.Slices ![0, 1024] S256x512
  slices_S256x3584_o0_1536_S256x512 : S256x3584.Slices ![0, 1536] S256x512
  slices_S256x3584_o0_2048_S256x512 : S256x3584.Slices ![0, 2048] S256x512
  slices_S256x3584_o0_2560_S256x512 : S256x3584.Slices ![0, 2560] S256x512
  slices_S256x3584_o0_3072_S256x512 : S256x3584.Slices ![0, 3072] S256x512
  dot_S256x512_S512x3584_S256x3584_1_0_0_1_n_n_wf : DotDims.WF S256x512 S512x3584 S256x3584 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x3584.size a ≤ S512x3584.size a
  hwx0_3 : ∀ i : grid0.Coords, EltTy.bits .f32 = 32 ∨ (Rect.block (s := S512x3584) S512x3584.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x3584.size a ≤ S512x3584.size a
  hwx0_4 : ∀ i : grid0.Coords, EltTy.bits .f32 = 32 ∨ (Rect.block (s := S512x3584) S512x3584.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3584.size a ≤ S1x3584.size a
  hwx0_5 : ∀ i : grid0.Coords, EltTy.bits .f32 = 32 ∨ (Rect.block (s := S1x3584) S1x3584.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3584.size a ≤ S1x3584.size a
  hwx0_6 : ∀ i : grid0.Coords, EltTy.bits .f32 = 32 ∨ (Rect.block (s := S1x3584) S1x3584.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S16384x512.size a
  hwx0_7 : ∀ i : grid0.Coords, EltTy.bits .f32 = 32 ∨ (Rect.block (s := S16384x512) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S16384x512.size a
  hwx0_8 : ∀ i : grid0.Coords, EltTy.bits .f32 = 32 ∨ (Rect.block (s := S16384x512) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S16384x512.size a
  hwx0_9 : ∀ i : grid0.Coords, EltTy.bits .f32 = 32 ∨ (Rect.block (s := S16384x512) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S16384x512.size a
  hwx0_10 : ∀ i : grid0.Coords, EltTy.bits .f32 = 32 ∨ (Rect.block (s := S16384x512) S256x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S16384x512.size a
  hwx0_11 : ∀ i : grid0.Coords, EltTy.bits .f32 = 32 ∨ (Rect.block (s := S16384x512) S256x512.size (cc0_transform_11 i) (hinb0_11 i)).WholeWords (EltTy.packing .f32)

variable [Facts₀]

def dot_S256x512_S512x3584_S256x3584_1_0_0_1_n_n : DotDims S256x512 S512x3584 S256x3584 where
  lhsContracting := [1]
  rhsContracting := [0]
  lhsNonContracting := [0]
  rhsNonContracting := [1]
  lhsBatch := []
  rhsBatch := []
  wf := dot_S256x512_S512x3584_S256x3584_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x3584.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x3584.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x3584.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x3584.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S256x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_3) S256x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_4) S256x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x512 : Shape := ⟨2, ![16384, 512]⟩
abbrev S3584x512 : Shape := ⟨2, ![3584, 512]⟩
abbrev S3584 : Shape := ⟨1, ![3584]⟩
abbrev S512x3584 : Shape := ⟨2, ![512, 3584]⟩
abbrev S16384x3584 : Shape := ⟨2, ![16384, 3584]⟩
abbrev S1x3584 : Shape := ⟨2, ![1, 3584]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S3584x512, .f32⟩
  | .hbm, ⟨4, _⟩ => ⟨S3584, .f32⟩
  | .hbm, ⟨5, _⟩ => ⟨S3584x512, .f32⟩
  | .hbm, ⟨6, _⟩ => ⟨S3584, .f32⟩
  | .hbm, ⟨7, _⟩ => ⟨S512x3584, .f32⟩
  | .hbm, ⟨8, _⟩ => ⟨S16384x3584, .f32⟩
  | .hbm, ⟨9, _⟩ => ⟨S1x3584, .f32⟩
  | .hbm, ⟨10, _⟩ => ⟨S16384x3584, .f32⟩
  | .hbm, ⟨11, _⟩ => ⟨S16384x3584, .f32⟩
  | .hbm, ⟨12, _⟩ => ⟨S512x3584, .f32⟩
  | .hbm, ⟨13, _⟩ => ⟨S16384x3584, .f32⟩
  | .hbm, ⟨14, _⟩ => ⟨S1x3584, .f32⟩
  | .hbm, ⟨15, _⟩ => ⟨S16384x3584, .f32⟩
  | .hbm, ⟨16, _⟩ => ⟨S16384x3584, .f32⟩
  | .hbm, ⟨17, _⟩ => ⟨S16384x3584, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S_, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S16384x512, .i1⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_v8 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_v57 : Ref sig .tc := ⟨.hbm, 87, rfl⟩

abbrev nD : Nat := 1
abbrev τ : Topo := Topo.v7x

variable {F : FTy → Type} [FloatOps F]

class Facts₀ : Prop where
  transposes_S3584x512_S512x3584_1_0 : S3584x512.Transposes [1, 0] S512x3584
  bcast_S3584_S1x3584_1 : S3584.BroadcastsInDim S1x3584 (![1] : Fin 1 → Fin S1x3584.rank)
  bcast_S1x3584_S16384x3584_0_1 : S1x3584.BroadcastsInDim S16384x3584 (![0, 1] : Fin 2 → Fin S16384x3584.rank)
  slices_S16384x3584_S16384x512_0_0 : S16384x3584.Slices ![0, 0] S16384x512
  slices_S16384x3584_S16384x512_0_512 : S16384x3584.Slices ![0, 512] S16384x512
  slices_S16384x3584_S16384x512_0_1024 : S16384x3584.Slices ![0, 1024] S16384x512
  slices_S16384x3584_S16384x512_0_1536 : S16384x3584.Slices ![0, 1536] S16384x512
  slices_S16384x3584_S16384x512_0_2048 : S16384x3584.Slices ![0, 2048] S16384x512
  slices_S16384x3584_S16384x512_0_2560 : S16384x3584.Slices ![0, 2560] S16384x512
  slices_S16384x3584_S16384x512_0_3072 : S16384x3584.Slices ![0, 3072] S16384x512
  bcast_S_S16384x512 : S_.BroadcastsInDim S16384x512 (![] : Fin 0 → Fin S16384x512.rank)
  dot_S16384x512_S512x3584_S16384x3584_1_0_0_1_n_n_wf : DotDims.WF S16384x512 S512x3584 S16384x3584 [1] [0] [0] [1] [] []

variable [Facts₀]

def dot_S16384x512_S512x3584_S16384x3584_1_0_0_1_n_n : DotDims S16384x512 S512x3584 S16384x3584 where
  lhsContracting := [1]
  rhsContracting := [0]
  lhsNonContracting := [0]
  rhsNonContracting := [1]
  lhsBatch := []
  rhsBatch := []
  wf := dot_S16384x512_S512x3584_S16384x3584_1_0_0_1_n_n_wf

class Facts : Prop extends Facts₀ where

variable [Facts]
-- ==== Proof.CellSpec.lean ====
/-
  The cell, index by index over the extended reals.

  The arguments are a batch of 16384 rows: the input x, the previous hidden state h and the previous cell state c,
  each [16384, 512]; two weight matrices Wx, Wh of shape [3584, 512] and two biases bx, bh of length 3584 = 7 · 512.
  Row r's pre-activations are the 3584 numbers

      pre[r, g] = (∑ₖ x[r, k] · Wx[g, k] + bx[g]) + (∑ₖ h[r, k] · Wh[g, k] + bh[g]),

  read as seven bands of 512 columns. With σ the logistic function, band n's column j written pₙ = pre[r, 512·n + j],
  the five results at (r, j) are

      o      = σ(p₃)
      c'     = σ(p₁) · c[r, j] + σ(p₀) · tanh(p₂)
      h'     = o · tanh(c')
      c̄      = σ(p₆) · c[r, j] + σ(p₅) · tanh(p₂)
      decay  = softplus(p₄) = max(p₄, 0) + log(1 + e^(-|p₄|)).

  Nothing here needs the arguments to be finite: the two programs apply the same operations in the same order, so
  the identities below hold at every extended real. What does differ is how each program spells two of the scalar
  functions, and those spellings are reconciled here once:
  * the logistic function is one operation in the kernel and the quotient 1 / (1 + e^(-w)) on the host;
  * softplus is written by both as a guarded sum whose guard tests w - 0 ≠ w - 0 — never true in a linear order —
    the kernel negating |w - 0| as 0 - |w - 0| and the host as -|w - 0|.
-/
import Idealize.ShloMosaic.PureOps.Ideal
import Idealize.ShloMosaic.PureOps.Ideal.Laws
import Idealize.ShloMosaic.Lib.ValueIdx

noncomputable section

open scoped BigOperators

namespace Cert.Cell

open Idealize.ShloMosaic Idealize.ShloMosaic.ValueIdx

/-- A batch of rows: x, the hidden state, the cell state and each result. -/
abbrev Rows : Shape := ⟨2, ![16384, 512]⟩
/-- A weight matrix: one row of 512 weights per pre-activation column. -/
abbrev Wts : Shape := ⟨2, ![3584, 512]⟩
/-- A bias: one number per pre-activation column. -/
abbrev Bias : Shape := ⟨1, ![3584]⟩
/-- The pre-activations: seven bands of 512 columns per row. -/
abbrev Bands : Shape := ⟨2, ![16384, 3584]⟩

/-- Row r's pre-activation in column g: the input's and the hidden state's products with the g-th weight rows, each
    with its bias, added in that grouping. -/
def pre (x h : FVec Ideal Rows .f32) (Wx Wh : FVec Ideal Wts .f32) (bx bh : FVec Ideal Bias .f32) :
    FVec Ideal Bands .f32 := fun i =>
  ((∑ k : Fin 512, x (ix2 (⟨(i 0).val, (i 0).isLt⟩ : Fin 16384) k) * Wx (ix2 (⟨(i 1).val, (i 1).isLt⟩ : Fin 3584) k))
      + bx (ix1 (⟨(i 1).val, (i 1).isLt⟩ : Fin 3584)))
    + ((∑ k : Fin 512, h (ix2 (⟨(i 0).val, (i 0).isLt⟩ : Fin 16384) k) * Wh (ix2 (⟨(i 1).val, (i 1).isLt⟩ : Fin 3584) k))
      + bh (ix1 (⟨(i 1).val, (i 1).isLt⟩ : Fin 3584)))

/-- Where result index (r, j) reads the band that starts at column `off`: the pre-activation index (r, off + j). -/
abbrev band (off : Nat) (hoff : off + 512 ≤ 3584) (i : Rows.Idx) : Bands.Idx :=
  ix2 (⟨(i 0).val, (i 0).isLt⟩ : Fin 16384)
    (⟨(i 1).val + off, by have h : (i 1).val < 512 := (i 1).isLt; omega⟩ : Fin 3584)

/-- softplus on the extended reals, in the overflow-safe form both programs compute. -/
def softplus (w : EReal) : EReal := max w 0 + Ideal.log1p (Ideal.exp (-(max w (-w))))

/-- The output gate: the logistic function of band 3. -/
def outGate (P : FVec Ideal Bands .f32) : FVec Ideal Rows .f32 := fun i =>
  Ideal.logistic (P (band 1536 (by norm_num) i))

/-- The new cell state: the forget gate (band 1) times the old state plus the input gate (band 0) times the
    candidate (tanh of band 2). -/
def newCell (P : FVec Ideal Bands .f32) (c : FVec Ideal Rows .f32) : FVec Ideal Rows .f32 := fun i =>
  Ideal.logistic (P (band 512 (by norm_num) i)) * c i
    + Ideal.logistic (P (band 0 (by norm_num) i)) * Ideal.tanh (P (band 1024 (by norm_num) i))

/-- The new hidden state: the output gate times tanh of the new cell state. -/
def newHidden (P : FVec Ideal Bands .f32) (c : FVec Ideal Rows .f32) : FVec Ideal Rows .f32 := fun i =>
  outGate P i * Ideal.tanh (newCell P c i)

/-- The target cell state: as the new cell state, with the second pair of gates (bands 6 and 5). -/
def targetCell (P : FVec Ideal Bands .f32) (c : FVec Ideal Rows .f32) : FVec Ideal Rows .f32 := fun i =>
  Ideal.logistic (P (band 3072 (by norm_num) i)) * c i
    + Ideal.logistic (P (band 2560 (by norm_num) i)) * Ideal.tanh (P (band 1024 (by norm_num) i))

/-- The decay rate: softplus of band 4. -/
def decayRate (P : FVec Ideal Bands .f32) : FVec Ideal Rows .f32 := fun i =>
  softplus (P (band 2048 (by norm_num) i))

/-! ## The two programs' spellings of the scalar functions -/

/-- The word of 1.0 is the number one. -/
theorem one_f32 : Ideal.ofBits .f32 0x3F800000#32 = 1 := by
  simp [Ideal.ofBits, Ideal.ieee, -EReal.coe_mul]; norm_num

/-- The host's quotient 1 / (1 + e^(-w)) is the logistic function, at every extended real: it is how the logistic
    function is defined there, once the two words of 1.0 are read as one. -/
theorem logistic_quotient (w : EReal) :
    Ideal.div (Ideal.ofBits .f32 0x3F800000#32) (Ideal.ofBits .f32 0x3F800000#32 + Ideal.exp (-w)) = Ideal.logistic w := by
  rw [one_f32]; rfl

/-- No extended real differs from itself, so the guard of either program's softplus is the zero bit. -/
theorem guard_une (d : EReal) : Ideal.cmp .une d d = 0#1 := by simp [Ideal.cmp]
theorem guard_one (d : EReal) : Ideal.cmp .one d d = 0#1 := by simp [Ideal.cmp]

/-- The host's softplus: the guard never fires, w - 0 is w, and what is left is `softplus`. -/
theorem softplus_host (w : EReal) :
    Scalar.select (Ideal.cmp .une (w - Ideal.ofBits .f32 0x00000000#32) (w - Ideal.ofBits .f32 0x00000000#32))
      (w + Ideal.ofBits .f32 0x00000000#32)
      (max w (Ideal.ofBits .f32 0x00000000#32)
        + Ideal.log1p (Ideal.exp (-(max (w - Ideal.ofBits .f32 0x00000000#32) (-(w - Ideal.ofBits .f32 0x00000000#32))))))
      = softplus w := by
  rw [guard_une, select_zero, Ideal.ofBits_zero_f32, sub_zero]; rfl

/-- The kernel's softplus: the same, its negation written 0 - |w - 0|. -/
theorem softplus_kernel (w : EReal) :
    Scalar.select (Ideal.cmp .one (w - Ideal.ofBits .f32 0x00000000#32) (w - Ideal.ofBits .f32 0x00000000#32))
      (w + Ideal.ofBits .f32 0x00000000#32)
      (max w (Ideal.ofBits .f32 0x00000000#32)
        + Ideal.log1p (Ideal.exp (Ideal.ofBits .f32 0x00000000#32
            - (max (w - Ideal.ofBits .f32 0x00000000#32) (-(w - Ideal.ofBits .f32 0x00000000#32))))))
      = softplus w := by
  rw [guard_one, select_zero, Ideal.ofBits_zero_f32, sub_zero, zero_sub]; rfl

end Cert.Cell

end
-- ==== Proof.RefCell.lean ====
/-
  The reference computes the cell.

  Read one operation at a time, the reference's pre-activation array — two products of a [16384, 512] batch with a
  transposed [3584, 512] weight matrix, each plus its bias broadcast along the rows, then added — is `Cell.pre` of the
  arguments: a transposed weight read at (k, g) is the weight at (g, k), and a bias broadcast to [1, 3584] and then to
  [16384, 3584] read at (r, g) is the bias at g. Its seven slices read that array at (r, off + j), the band index.
  Each result is then the same scalar operations as the specification's, the logistic function spelt as the quotient
  1 / (1 + e^(-w)) and softplus with its guard (`Cell.logistic_quotient`, `Cell.softplus_host`).
-/
import proofs.«136796_j90065464197524_1_alg».proof.Proof.Gen.ReferenceIdeal.Read
import proofs.«136796_j90065464197524_1_alg».proof.Proof.CellSpec

noncomputable section

open scoped BigOperators

namespace Cert.Cell.Ref

open Cert.ReferenceIdeal Cert.ReferenceIdeal.Read Idealize.ShloMosaic Idealize.ShloMosaic.ValueIdx Cert.Cell

variable (x h c : FVec Ideal S16384x512 .f32) (Wx Wh : FVec Ideal S3584x512 .f32) (bx bh : FVec Ideal S3584 .f32)

/-- The sum of the two biased products is the specification's pre-activation array. -/
theorem pre_eq : val_main_v10 (F := Ideal) x h Wx bx Wh bh = pre x h Wx Wh bx bh := by
  funext i
  rw [val_main_v10_apply, val_main_v4_apply, val_main_v9_apply, val_main_v1_apply, val_main_v3_apply,
    val_main_v2_apply, val_main_v6_apply, val_main_v8_apply, val_main_v7_apply]
  simp only [val_main_v0_apply, val_main_v5_apply]
  have e1 : ∀ k : Fin 512, lidx_main_v1 i k = ix2 (⟨(i 0).val, (i 0).isLt⟩ : Fin 16384) k := fun k =>
    funext fun a => by match a with | ⟨0, _⟩ => rfl | ⟨1, _⟩ => rfl
  have e2 : ∀ k : Fin 512, idx_main_v0 (ridx_main_v1 i k) = ix2 (⟨(i 1).val, (i 1).isLt⟩ : Fin 3584) k := fun k =>
    funext fun a => by match a with | ⟨0, _⟩ => rfl | ⟨1, _⟩ => rfl
  have e3 : idx_main_v2 (idx_main_v3 i) = ix1 (⟨(i 1).val, (i 1).isLt⟩ : Fin 3584) :=
    funext fun a => by match a with | ⟨0, _⟩ => rfl
  have e4 : ∀ k : Fin 512, lidx_main_v6 i k = ix2 (⟨(i 0).val, (i 0).isLt⟩ : Fin 16384) k := fun k =>
    funext fun a => by match a with | ⟨0, _⟩ => rfl | ⟨1, _⟩ => rfl
  have e5 : ∀ k : Fin 512, idx_main_v5 (ridx_main_v6 i k) = ix2 (⟨(i 1).val, (i 1).isLt⟩ : Fin 3584) k := fun k =>
    funext fun a => by match a with | ⟨0, _⟩ => rfl | ⟨1, _⟩ => rfl
  have e6 : idx_main_v7 (idx_main_v8 i) = ix1 (⟨(i 1).val, (i 1).isLt⟩ : Fin 3584) :=
    funext fun a => by match a with | ⟨0, _⟩ => rfl
  simp only [e1, e2, e3, e4, e5, e6]
  rfl

/-! ## The slices read the bands -/

theorem slice0 (i : S16384x512.Idx) : idx_main_v11 i = band 0 (by norm_num) i :=
  funext fun a => by match a with | ⟨0, _⟩ => rfl | ⟨1, _⟩ => rfl
theorem slice1 (i : S16384x512.Idx) : idx_main_v12 i = band 512 (by norm_num) i :=
  funext fun a => by match a with | ⟨0, _⟩ => rfl | ⟨1, _⟩ => exact Fin.ext (Nat.add_comm _ _)
theorem slice2 (i : S16384x512.Idx) : idx_main_v13 i = band 1024 (by norm_num) i :=
  funext fun a => by match a with | ⟨0, _⟩ => rfl | ⟨1, _⟩ => exact Fin.ext (Nat.add_comm _ _)
theorem slice3 (i : S16384x512.Idx) : idx_main_v14 i = band 1536 (by norm_num) i :=
  funext fun a => by match a with | ⟨0, _⟩ => rfl | ⟨1, _⟩ => exact Fin.ext (Nat.add_comm _ _)
theorem slice4 (i : S16384x512.Idx) : idx_main_v15 i = band 2048 (by norm_num) i :=
  funext fun a => by match a with | ⟨0, _⟩ => rfl | ⟨1, _⟩ => exact Fin.ext (Nat.add_comm _ _)
theorem slice5 (i : S16384x512.Idx) : idx_main_v16 i = band 2560 (by norm_num) i :=
  funext fun a => by match a with | ⟨0, _⟩ => rfl | ⟨1, _⟩ => exact Fin.ext (Nat.add_comm _ _)
theorem slice6 (i : S16384x512.Idx) : idx_main_v17 i = band 3072 (by norm_num) i :=
  funext fun a => by match a with | ⟨0, _⟩ => rfl | ⟨1, _⟩ => exact Fin.ext (Nat.add_comm _ _)

/-! ## The six gates: the quotient 1 / (1 + e^(-w)) of a band is its logistic function -/

theorem gate0 (i : S16384x512.Idx) :
    val_main_v23 (F := Ideal) x h Wx bx Wh bh i = Ideal.logistic (pre x h Wx Wh bx bh (band 0 (by norm_num) i)) := by
  simp only [val_main_v23_apply, val_main_v22_apply, val_main_cst_0_apply, val_main_v21_apply, val_main_v20_apply,
    val_main_cst_apply, val_main_v19_apply, val_main_v18_apply, val_main_v11_apply, pre_eq, slice0]
  exact logistic_quotient _

theorem gate1 (i : S16384x512.Idx) :
    val_main_v29 (F := Ideal) x h Wx bx Wh bh i = Ideal.logistic (pre x h Wx Wh bx bh (band 512 (by norm_num) i)) := by
  simp only [val_main_v29_apply, val_main_v28_apply, val_main_cst_2_apply, val_main_v27_apply, val_main_v26_apply,
    val_main_cst_1_apply, val_main_v25_apply, val_main_v24_apply, val_main_v12_apply, pre_eq, slice1]
  exact logistic_quotient _

theorem gate3 (i : S16384x512.Idx) :
    val_main_v36 (F := Ideal) x h Wx bx Wh bh i = Ideal.logistic (pre x h Wx Wh bx bh (band 1536 (by norm_num) i)) := by
  simp only [val_main_v36_apply, val_main_v35_apply, val_main_cst_4_apply, val_main_v34_apply, val_main_v33_apply,
    val_main_cst_3_apply, val_main_v32_apply, val_main_v31_apply, val_main_v14_apply, pre_eq, slice3]
  exact logistic_quotient _

theorem gate5 (i : S16384x512.Idx) :
    val_main_v42 (F := Ideal) x h Wx bx Wh bh i = Ideal.logistic (pre x h Wx Wh bx bh (band 2560 (by norm_num) i)) := by
  simp only [val_main_v42_apply, val_main_v41_apply, val_main_cst_6_apply, val_main_v40_apply, val_main_v39_apply,
    val_main_cst_5_apply, val_main_v38_apply, val_main_v37_apply, val_main_v16_apply, pre_eq, slice5]
  exact logistic_quotient _

theorem gate6 (i : S16384x512.Idx) :
    val_main_v48 (F := Ideal) x h Wx bx Wh bh i = Ideal.logistic (pre x h Wx Wh bx bh (band 3072 (by norm_num) i)) := by
  simp only [val_main_v48_apply, val_main_v47_apply, val_main_cst_8_apply, val_main_v46_apply, val_main_v45_apply,
    val_main_cst_7_apply, val_main_v44_apply, val_main_v43_apply, val_main_v17_apply, pre_eq, slice6]
  exact logistic_quotient _

/-- The candidate: tanh of band 2. -/
theorem candidate (i : S16384x512.Idx) :
    val_main_v30 (F := Ideal) x h Wx bx Wh bh i = Ideal.tanh (pre x h Wx Wh bx bh (band 1024 (by norm_num) i)) := by
  simp only [val_main_v30_apply, val_main_v13_apply, pre_eq, slice2]
  rfl

/-! ## The five results -/

theorem outGate_eq : val_main_v36 (F := Ideal) x h Wx bx Wh bh = outGate (pre x h Wx Wh bx bh) :=
  funext fun i => gate3 x h Wx Wh bx bh i

theorem newCell_eq : val_main_v51 (F := Ideal) x h c Wx bx Wh bh = newCell (pre x h Wx Wh bx bh) c := by
  funext i
  rw [val_main_v51_apply, val_main_v49_apply, val_main_v50_apply, gate1, gate0, candidate]
  rfl

theorem newHidden_eq : val_main_v53 (F := Ideal) x h c Wx bx Wh bh = newHidden (pre x h Wx Wh bx bh) c := by
  funext i
  rw [val_main_v53_apply, val_main_v52_apply, gate3, newCell_eq]
  rfl

theorem targetCell_eq : val_main_v56 (F := Ideal) x h c Wx bx Wh bh = targetCell (pre x h Wx Wh bx bh) c := by
  funext i
  rw [val_main_v56_apply, val_main_v54_apply, val_main_v55_apply, gate6, gate5, candidate]
  rfl

theorem decayRate_eq : val_main_v57 (F := Ideal) x h Wx bx Wh bh = decayRate (pre x h Wx Wh bx bh) := by
  funext i
  simp only [val_main_v57_apply, val_main_call0_v4_apply, val_main_call0_v3_apply, val_main_call0_v2_apply,
    val_main_call0_cst_apply, val_main_call0_v6_apply, val_main_call0_v5_apply, val_main_call0_v11_apply,
    val_main_call0_v1_apply, val_main_call0_v0_apply, val_main_call0_v10_apply, val_main_call0_v9_apply,
    val_main_call0_v8_apply, val_main_call0_v7_apply, val_main_v15_apply, pre_eq, slice4]
  exact softplus_host _

end Cert.Cell.Ref

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KernelPre.lean ====
/-
  One block of the kernel's pre-activations.

  At a grid point the body holds a [256, 512] block of x and of the hidden state, both transposed weight matrices whole
  ([512, 3584]) and both biases as [1, 3584] rows. Its pre-activation block is the two matrix products into zero
  accumulators, each plus its bias row broadcast down the 256 rows, then added: at (p, q)

      (∑ₖ X[p, k] · W[k, q] + B[0, q]) + (∑ₖ X'[p, k] · W'[k, q] + B'[0, q]).

  The dimension numbers contract the left operand's second axis with the right operand's first and have no batch axis,
  so the left operand is read at (p, k) and the right at (k, q): the four facts below, the hypotheses of the general
  entry-of-a-product lemma.
-/
import proofs.«136796_j90065464197524_1_alg».proof.Proof.Gen.KernelIdeal.Skeleton
import proofs.«136796_j90065464197524_1_alg».proof.Proof.LibMatmulAt
import Idealize.ShloMosaic.Lib.Pipeline.Value
import Idealize.ShloMosaic.Lib.ValueIdx
import Idealize.ShloMosaic.PureOps.Ideal.Laws

noncomputable section

open scoped BigOperators

namespace Cert.Cell.Kern

open Cert.KernelIdeal Cert.KernelIdeal.Gen Idealize.ShloMosaic Idealize.ShloMosaic.ValueIdx

/-! ## Where the product's dimension numbers read their operands -/

theorem lhs_row (i : S256x3584.Idx) (q : dot_S256x512_S512x3584_S256x3584_1_0_0_1_n_n.contr.Idx) :
    (dot_S256x512_S512x3584_S256x3584_1_0_0_1_n_n.lhsIdx i q 0).val = (i 0).val := by
  unfold DotDims.lhsIdx
  rw [dif_neg (show ¬(0 : Fin S256x512.rank) ∈ dot_S256x512_S512x3584_S256x3584_1_0_0_1_n_n.lhsBatch by decide),
    dif_pos (show (0 : Fin S256x512.rank) ∈ dot_S256x512_S512x3584_S256x3584_1_0_0_1_n_n.lhsNonContracting by decide)]
  rfl
theorem lhs_contr (i : S256x3584.Idx) (q : dot_S256x512_S512x3584_S256x3584_1_0_0_1_n_n.contr.Idx) :
    (dot_S256x512_S512x3584_S256x3584_1_0_0_1_n_n.lhsIdx i q 1).val = (q ⟨0, by decide⟩).val :=
  dot_S256x512_S512x3584_S256x3584_1_0_0_1_n_n.lhsIdx_val_of_single rfl i q
theorem rhs_contr (i : S256x3584.Idx) (q : dot_S256x512_S512x3584_S256x3584_1_0_0_1_n_n.contr.Idx) :
    (dot_S256x512_S512x3584_S256x3584_1_0_0_1_n_n.rhsIdx i q 0).val = (q ⟨0, by decide⟩).val :=
  dot_S256x512_S512x3584_S256x3584_1_0_0_1_n_n.rhsIdx_val_of_single rfl i q
theorem rhs_col (i : S256x3584.Idx) (q : dot_S256x512_S512x3584_S256x3584_1_0_0_1_n_n.contr.Idx) :
    (dot_S256x512_S512x3584_S256x3584_1_0_0_1_n_n.rhsIdx i q 1).val = (i 1).val := by
  unfold DotDims.rhsIdx
  rw [dif_neg (show ¬(1 : Fin S512x3584.rank) ∈ dot_S256x512_S512x3584_S256x3584_1_0_0_1_n_n.rhsBatch by decide),
    dif_pos (show (1 : Fin S512x3584.rank) ∈ dot_S256x512_S512x3584_S256x3584_1_0_0_1_n_n.rhsNonContracting by decide)]
  rfl

/-- Entry (p, q) of a block's product with a whole transposed weight matrix, accumulated into zero. -/
theorem product_at (X : FVec Ideal S256x512 .f32) (W : FVec Ideal S512x3584 .f32) (p : Fin 256) (q : Fin 3584) :
    matmul (F := Ideal) dot_S256x512_S512x3584_S256x3584_1_0_0_1_n_n none X
        (shapeCast S512x3584 W shapeCasts_S512x3584_S512x3584) (constant (F := Ideal) S256x3584 .f32 0x00000000#32) (ix2 p q)
      = ∑ k : Fin 512, X (ix2 p k) * W (ix2 k q) := by
  rw [shapeCast_self]
  exact MatmulAt.matmul_zero_at dot_S256x512_S512x3584_S256x3584_1_0_0_1_n_n rfl rfl lhs_row lhs_contr rhs_contr rhs_col
    none X W p q

/-- A bias row broadcast down the block's rows, read at (p, q), is the row's entry q. -/
theorem bias_at (B : FVec Ideal S1x3584 .f32) (p : Fin 256) (q : Fin 3584) :
    broadcastTo S256x3584 (shapeCast S1x3584 B shapeCasts_S1x3584_S1x3584) broadcasts_S1x3584_S256x3584 (ix2 p q)
      = B (ix2 (0 : Fin 1) q) := by
  rw [shapeCast_self]
  exact broadcastTo_apply B broadcasts_S1x3584_S256x3584 (ix2 p q) (ix2 (0 : Fin 1) q) (fun a => match a with
    | ⟨0, _⟩ => by show 0 = if (1 : Nat) = 1 then 0 else p.val; rw [if_pos rfl]
    | ⟨1, _⟩ => by show q.val = if (3584 : Nat) = 1 then 0 else q.val; rw [if_neg (by decide)])

/-- The block's pre-activation at (p, q). -/
theorem blockPre_at (X X' : FVec Ideal S256x512 .f32) (W : FVec Ideal S512x3584 .f32) (B : FVec Ideal S1x3584 .f32)
    (W' : FVec Ideal S512x3584 .f32) (B' : FVec Ideal S1x3584 .f32) (p : Fin 256) (q : Fin 3584) :
    k0_pay2 (F := Ideal) X X' W B W' B' (ix2 p q)
      = ((∑ k : Fin 512, X (ix2 p k) * W (ix2 k q)) + B (ix2 (0 : Fin 1) q))
        + ((∑ k : Fin 512, X' (ix2 p k) * W' (ix2 k q)) + B' (ix2 (0 : Fin 1) q)) := by
  unfold k0_pay2
  rw [addf_apply, addf_apply, addf_apply, product_at, product_at, bias_at, bias_at]

end Cert.Cell.Kern

end
-- ==== Proof.KernelGates.lean ====
/-
  What the body stores, at one index of a block.

  The five stored values are pointwise functions of seven 512-column bands of the block's pre-activations `G` (a
  [256, 3584] value) and of the cell-state block `C`: at (p, q), with gₙ = G[p, 512·n + q],

      output gate   σ(g₃)
      new cell      σ(g₁) · C[p, q] + σ(g₀) · tanh(g₂)
      new hidden    σ(g₃) · tanh(new cell)
      target cell   σ(g₆) · C[p, q] + σ(g₅) · tanh(g₂)
      decay rate    softplus(g₄), in the kernel's spelling.

  A band is a unit-stride slice [0 : 256, off : off + 512] of `G`, so its entry (p, q) is G[p, off + q].
-/
import proofs.«136796_j90065464197524_1_alg».proof.Proof.Gen.KernelIdeal.Skeleton
import proofs.«136796_j90065464197524_1_alg».proof.Proof.CellSpec
import Idealize.ShloMosaic.Lib.Pipeline.Value
import Idealize.ShloMosaic.Lib.ValueIdx
import Idealize.ShloMosaic.PureOps.Ideal.Laws

noncomputable section

namespace Cert.Cell.Kern

open Cert.KernelIdeal Cert.KernelIdeal.Gen Idealize.ShloMosaic Idealize.ShloMosaic.ValueIdx Cert.Cell

/-- Column q of the band that starts at column `off`. -/
abbrev bandCol (off : Nat) (hoff : off + 512 ≤ 3584) (q : Fin 512) : Fin 3584 :=
  ⟨q.val + off, by have h := q.isLt; omega⟩

/-- Entry (p, q) of the band of `G` that starts at column `off` is G[p, off + q]. -/
theorem band_at (G : FVec Ideal S256x3584 .f32) (off : Nat) (hs : S256x3584.Slices ![0, off] S256x512)
    (hoff : off + 512 ≤ 3584) (p : Fin 256) (q : Fin 512) :
    extractStridedSlice S256x512 ![0, off] G hs (ix2 p q) = G (ix2 p (bandCol off hoff q)) :=
  extractStridedSlice_apply ![0, off] G hs (ix2 p q) (ix2 p (bandCol off hoff q)) (fun a => match a with
    | ⟨0, _⟩ => by show p.val = 0 + p.val; omega
    | ⟨1, _⟩ => by show q.val + off = off + q.val; omega)

variable (X X' C : FVec Ideal S256x512 .f32) (W W' : FVec Ideal S512x3584 .f32) (B B' : FVec Ideal S1x3584 .f32)

/-- The block's pre-activations, named. -/
abbrev G : FVec Ideal S256x3584 .f32 := k0_pay2 (F := Ideal) X X' W B W' B'

/-- The candidate: tanh of band 2. -/
theorem candidate_at (p : Fin 256) (q : Fin 512) :
    k0_pay4 (F := Ideal) X X' W B W' B' (ix2 p q) = Ideal.tanh (G X X' W W' B B' (ix2 p (bandCol 1024 (by norm_num) q))) := by
  unfold k0_pay4
  show Ideal.tanh (extractStridedSlice S256x512 ![0, 1024] (k0_pay2 (F := Ideal) X X' W B W' B') slices_S256x3584_o0_1024_S256x512 (ix2 p q)) = _
  rw [band_at _ 1024 _ (by norm_num)]

/-- The output gate: the logistic function of band 3. -/
theorem outGate_at (p : Fin 256) (q : Fin 512) :
    k0_pay5 (F := Ideal) X X' W B W' B' (ix2 p q) = Ideal.logistic (G X X' W W' B B' (ix2 p (bandCol 1536 (by norm_num) q))) := by
  unfold k0_pay5
  show Ideal.logistic (extractStridedSlice S256x512 ![0, 1536] (k0_pay2 (F := Ideal) X X' W B W' B') slices_S256x3584_o0_1536_S256x512 (ix2 p q)) = _
  rw [band_at _ 1536 _ (by norm_num)]

/-- The new cell state. -/
theorem newCell_at (p : Fin 256) (q : Fin 512) :
    k0_pay6 (F := Ideal) X X' C W B W' B' (ix2 p q)
      = Ideal.logistic (G X X' W W' B B' (ix2 p (bandCol 512 (by norm_num) q))) * C (ix2 p q)
        + Ideal.logistic (G X X' W W' B B' (ix2 p (bandCol 0 (by norm_num) q)))
          * Ideal.tanh (G X X' W W' B B' (ix2 p (bandCol 1024 (by norm_num) q))) := by
  unfold k0_pay6
  show Ideal.logistic (extractStridedSlice S256x512 ![0, 512] (k0_pay2 (F := Ideal) X X' W B W' B') slices_S256x3584_o0_512_S256x512 (ix2 p q)) * C (ix2 p q)
      + Ideal.logistic (extractStridedSlice S256x512 ![0, 0] (k0_pay2 (F := Ideal) X X' W B W' B') slices_S256x3584_o0_0_S256x512 (ix2 p q))
        * k0_pay4 (F := Ideal) X X' W B W' B' (ix2 p q) = _
  rw [band_at _ 512 _ (by norm_num), band_at _ 0 _ (by norm_num), candidate_at]

/-- The new hidden state. -/
theorem newHidden_at (p : Fin 256) (q : Fin 512) :
    k0_pay7 (F := Ideal) X X' C W B W' B' (ix2 p q)
      = Ideal.logistic (G X X' W W' B B' (ix2 p (bandCol 1536 (by norm_num) q)))
        * Ideal.tanh (k0_pay6 (F := Ideal) X X' C W B W' B' (ix2 p q)) := by
  unfold k0_pay7
  show k0_pay5 (F := Ideal) X X' W B W' B' (ix2 p q) * Ideal.tanh (k0_pay6 (F := Ideal) X X' C W B W' B' (ix2 p q)) = _
  rw [outGate_at]

/-- The target cell state. -/
theorem targetCell_at (p : Fin 256) (q : Fin 512) :
    k0_pay8 (F := Ideal) X X' C W B W' B' (ix2 p q)
      = Ideal.logistic (G X X' W W' B B' (ix2 p (bandCol 3072 (by norm_num) q))) * C (ix2 p q)
        + Ideal.logistic (G X X' W W' B B' (ix2 p (bandCol 2560 (by norm_num) q)))
          * Ideal.tanh (G X X' W W' B B' (ix2 p (bandCol 1024 (by norm_num) q))) := by
  unfold k0_pay8
  show Ideal.logistic (extractStridedSlice S256x512 ![0, 3072] (k0_pay2 (F := Ideal) X X' W B W' B') slices_S256x3584_o0_3072_S256x512 (ix2 p q)) * C (ix2 p q)
      + Ideal.logistic (extractStridedSlice S256x512 ![0, 2560] (k0_pay2 (F := Ideal) X X' W B W' B') slices_S256x3584_o0_2560_S256x512 (ix2 p q))
        * k0_pay4 (F := Ideal) X X' W B W' B' (ix2 p q) = _
  rw [band_at _ 3072 _ (by norm_num), band_at _ 2560 _ (by norm_num), candidate_at]

/-- The decay rate: the kernel's guarded sum at band 4 is softplus. -/
theorem decayRate_at (p : Fin 256) (q : Fin 512) :
    k0_pay1 (F := Ideal) (k0_pay3 (F := Ideal) X X' W B W' B') (Scalar.ofBits .f32 0x00000000#32)
        (k0_pay9 (F := Ideal) X X' W B W' B') (k0_pay10 (F := Ideal)) (ix2 p q)
      = softplus (G X X' W W' B B' (ix2 p (bandCol 2048 (by norm_num) q))) := by
  have e : k0_pay3 (F := Ideal) X X' W B W' B' (ix2 p q) = G X X' W W' B B' (ix2 p (bandCol 2048 (by norm_num) q)) := by
    unfold k0_pay3
    exact band_at _ 2048 _ (by norm_num) p q
  unfold k0_pay1 k0_pay9 k0_pay10
  show Scalar.select
      (Ideal.cmp .one (k0_pay3 (F := Ideal) X X' W B W' B' (ix2 p q) - Ideal.ofBits .f32 0x00000000#32)
        (k0_pay3 (F := Ideal) X X' W B W' B' (ix2 p q) - Ideal.ofBits .f32 0x00000000#32))
      (k0_pay3 (F := Ideal) X X' W B W' B' (ix2 p q) + Ideal.ofBits .f32 0x00000000#32)
      (max (k0_pay3 (F := Ideal) X X' W B W' B' (ix2 p q)) (Ideal.ofBits .f32 0x00000000#32)
        + Ideal.log1p (Ideal.exp (Ideal.ofBits .f32 0x00000000#32
            - max (k0_pay3 (F := Ideal) X X' W B W' B' (ix2 p q) - Ideal.ofBits .f32 0x00000000#32)
                (-(k0_pay3 (F := Ideal) X X' W B W' B' (ix2 p q) - Ideal.ofBits .f32 0x00000000#32))))) = _
  rw [e]
  exact softplus_kernel _

end Cert.Cell.Kern

end
-- ==== Proof.KernelBlocks.lean ====
/-
  A block of the kernel is a block of the specification.

  Grid point t stages rows 256·t … 256·t + 255 of x, of the hidden state and of the cell state, and the two weight
  matrices and the two biases whole — the weights as the host transposed them ([512, 3584]: entry (k, g) is the weight
  at (g, k)) and the biases as the host reshaped them to one row ([1, 3584]: entry (0, g) is the bias at g). So the
  block's pre-activation at (p, g) is the specification's at (256·t + p, g), and each value the body stores at
  (p, q) is the specification's result at (256·t + p, q).
-/
import proofs.«136796_j90065464197524_1_alg».proof.Proof.Gen.KernelIdeal.Frame
import proofs.«136796_j90065464197524_1_alg».proof.Proof.CellSpec
import proofs.«136796_j90065464197524_1_alg».proof.Proof.KernelPre
import proofs.«136796_j90065464197524_1_alg».proof.Proof.KernelGates
import Idealize.ShloMosaic.Lib.Pipeline.Value
import Idealize.ShloMosaic.Lib.ValueIdx
import Idealize.ShloMosaic.Lib.StableHlo.Run

noncomputable section

open scoped BigOperators

namespace Cert.Cell.Kern

open Cert.KernelIdeal Cert.KernelIdeal.Gen Idealize.ShloMosaic Idealize.ShloMosaic.TcCoe Idealize.ShloMosaic.ValueIdx
open Idealize.SL.Sem Idealize.ShloMosaic.StableHlo Cert.Cell

variable (m : (ℓ : Loc nD τ sig) → Buf (Elt Ideal) ℓ)

/-! ## The arguments as launched on core c, and the specification's pre-activations of them -/

abbrev argX (c : Dev nD) : FVec Ideal S16384x512 .f32 := m ((c : Thread nD τ).loc main_arg0)
abbrev argH (c : Dev nD) : FVec Ideal S16384x512 .f32 := m ((c : Thread nD τ).loc main_arg1)
abbrev argC (c : Dev nD) : FVec Ideal S16384x512 .f32 := m ((c : Thread nD τ).loc main_arg2)
abbrev argWx (c : Dev nD) : FVec Ideal S3584x512 .f32 := m ((c : Thread nD τ).loc main_arg3)
abbrev argBx (c : Dev nD) : FVec Ideal S3584 .f32 := m ((c : Thread nD τ).loc main_arg4)
abbrev argWh (c : Dev nD) : FVec Ideal S3584x512 .f32 := m ((c : Thread nD τ).loc main_arg5)
abbrev argBh (c : Dev nD) : FVec Ideal S3584 .f32 := m ((c : Thread nD τ).loc main_arg6)

abbrev gates (c : Dev nD) : FVec Ideal Bands .f32 :=
  pre (argX m c) (argH m c) (argWx m c) (argWh m c) (argBx m c) (argBh m c)

/-- Row p of grid point t's blocks is batch row 256·t + p. -/
def rowOf (t : Fin cfg0.N) (p : Fin 256) : Fin 16384 :=
  ⟨t.val * 256 + p.val, by have ht : t.val < 64 := lt_of_lt_of_eq t.isLt N_0; have hp := p.isLt; omega⟩

/-! ## The arrays the host prepared: the transposed weights and the one-row biases -/

theorem wxT_eq (c : Dev nD) : (V m c main_v0 : S512x3584.Idx → EReal)
    = transpose S512x3584 [1, 0] (argWx m c) transposes_S3584x512_S512x3584_1_0 := by
  dsimp only [Gen.V, Gen.hostOps0]; after_results

theorem whT_eq (c : Dev nD) : (V m c main_v1 : S512x3584.Idx → EReal)
    = transpose S512x3584 [1, 0] (argWh m c) transposes_S3584x512_S512x3584_1_0 := by
  dsimp only [Gen.V, Gen.hostOps0]; after_results

theorem bxRow_eq (c : Dev nD) : (V m c main_v2 : S1x3584.Idx → EReal)
    = shapeCast S1x3584 (argBx m c) shapeCasts_S3584_S1x3584 := by
  dsimp only [Gen.V, Gen.hostOps0]; after_results; rfl

theorem bhRow_eq (c : Dev nD) : (V m c main_v3 : S1x3584.Idx → EReal)
    = shapeCast S1x3584 (argBh m c) shapeCasts_S3584_S1x3584 := by
  dsimp only [Gen.V, Gen.hostOps0]; after_results; rfl

/-- A transposed weight matrix at (k, g) is the weight at (g, k). -/
theorem transposed_at (Wt : FVec Ideal S3584x512 .f32) (k : Fin 512) (g : Fin 3584) :
    transpose S512x3584 [1, 0] Wt transposes_S3584x512_S512x3584_1_0 (ix2 k g) = Wt (ix2 g k) :=
  transpose_apply [1, 0] Wt transposes_S3584x512_S512x3584_1_0 (ix2 k g) (ix2 g k) (fun b => match b with
    | ⟨0, _⟩ => rfl
    | ⟨1, _⟩ => rfl)

/-- A bias reshaped to one row, at (0, g), is the bias at g: both sit at row-major position g. -/
theorem row_at (b : FVec Ideal S3584 .f32) (g : Fin 3584) :
    shapeCast S1x3584 b shapeCasts_S3584_S1x3584 (ix2 (0 : Fin 1) g) = b (ix1 g) :=
  shapeCast_apply b shapeCasts_S3584_S1x3584 (ix2 (0 : Fin 1) g) (ix1 g) (by
    rw [Shape.rowMajor_val_one, Shape.rowMajor_val_two]
    show g.val = 0 * 3584 + g.val
    omega)

/-! ## Which block each input window stages at grid point t -/

/-- The three row windows stage block t of the rows; the four others stage their whole array at every point. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The blocks, each under a name of its literal type. -/
abbrev xblk (c : Dev nD) (t : Fin cfg0.N) : FVec Ideal S256x512 .f32 := iblk m c 0 t
abbrev hblk (c : Dev nD) (t : Fin cfg0.N) : FVec Ideal S256x512 .f32 := iblk m c 1 t
abbrev cblk (c : Dev nD) (t : Fin cfg0.N) : FVec Ideal S256x512 .f32 := iblk m c 2 t
abbrev wxblk (c : Dev nD) (t : Fin cfg0.N) : FVec Ideal S512x3584 .f32 := iblk m c 3 t
abbrev whblk (c : Dev nD) (t : Fin cfg0.N) : FVec Ideal S512x3584 .f32 := iblk m c 4 t
abbrev bxblk (c : Dev nD) (t : Fin cfg0.N) : FVec Ideal S1x3584 .f32 := iblk m c 5 t
abbrev bhblk (c : Dev nD) (t : Fin cfg0.N) : FVec Ideal S1x3584 .f32 := iblk m c 6 t

theorem xblk_at (c : Dev nD) (t : Fin cfg0.N) (p : Fin 256) (k : Fin 512) :
    xblk m c t (ix2 p k) = argX m c (ix2 (rowOf t p) k) := by
  show V m c main_arg0 (((cfg0.win 0).blk t).view.emb (ix2 p k)) = _
  rw [V_main_arg0]
  refine congrArg _ (funext fun a => Fin.ext ?_)
  obtain ⟨⟨e0, e1⟩, -, -⟩ := idx_rows t
  match a with
  | ⟨0, _⟩ => show win0_0.index t (0 : Fin 2) * 256 + 1 * p.val = t.val * 256 + p.val; omega
  | ⟨1, _⟩ => show win0_0.index t (1 : Fin 2) * 512 + 1 * k.val = k.val; omega

theorem hblk_at (c : Dev nD) (t : Fin cfg0.N) (p : Fin 256) (k : Fin 512) :
    hblk m c t (ix2 p k) = argH m c (ix2 (rowOf t p) k) := by
  show V m c main_arg1 (((cfg0.win 1).blk t).view.emb (ix2 p k)) = _
  rw [V_main_arg1]
  refine congrArg _ (funext fun a => Fin.ext ?_)
  obtain ⟨-, ⟨e0, e1⟩, -⟩ := idx_rows t
  match a with
  | ⟨0, _⟩ => show win0_1.index t (0 : Fin 2) * 256 + 1 * p.val = t.val * 256 + p.val; omega
  | ⟨1, _⟩ => show win0_1.index t (1 : Fin 2) * 512 + 1 * k.val = k.val; omega

theorem cblk_at (c : Dev nD) (t : Fin cfg0.N) (p : Fin 256) (q : Fin 512) :
    cblk m c t (ix2 p q) = argC m c (ix2 (rowOf t p) q) := by
  show V m c main_arg2 (((cfg0.win 2).blk t).view.emb (ix2 p q)) = _
  rw [V_main_arg2]
  refine congrArg _ (funext fun a => Fin.ext ?_)
  obtain ⟨-, -, ⟨e0, e1⟩⟩ := idx_rows t
  match a with
  | ⟨0, _⟩ => show win0_2.index t (0 : Fin 2) * 256 + 1 * p.val = t.val * 256 + p.val; omega
  | ⟨1, _⟩ => show win0_2.index t (1 : Fin 2) * 512 + 1 * q.val = q.val; omega

theorem wxblk_at (c : Dev nD) (t : Fin cfg0.N) (k : Fin 512) (g : Fin 3584) :
    wxblk m c t (ix2 k g) = argWx m c (ix2 g k) := by
  show V m c main_v0 (((cfg0.win 3).blk t).view.emb (ix2 k g)) = _
  rw [wxT_eq]
  have e : ((cfg0.win 3).blk t).view.emb (ix2 k g) = ix2 k g := by
    funext a; apply Fin.ext
    obtain ⟨⟨e0, e1⟩, -, -, -⟩ := idx_whole t
    match a with
    | ⟨0, _⟩ => show win0_3.index t (0 : Fin 2) * 512 + 1 * k.val = k.val; omega
    | ⟨1, _⟩ => show win0_3.index t (1 : Fin 2) * 3584 + 1 * g.val = g.val; omega
  rw [e, transposed_at]

theorem whblk_at (c : Dev nD) (t : Fin cfg0.N) (k : Fin 512) (g : Fin 3584) :
    whblk m c t (ix2 k g) = argWh m c (ix2 g k) := by
  show V m c main_v1 (((cfg0.win 4).blk t).view.emb (ix2 k g)) = _
  rw [whT_eq]
  have e : ((cfg0.win 4).blk t).view.emb (ix2 k g) = ix2 k g := by
    funext a; apply Fin.ext
    obtain ⟨-, ⟨e0, e1⟩, -, -⟩ := idx_whole t
    match a with
    | ⟨0, _⟩ => show win0_4.index t (0 : Fin 2) * 512 + 1 * k.val = k.val; omega
    | ⟨1, _⟩ => show win0_4.index t (1 : Fin 2) * 3584 + 1 * g.val = g.val; omega
  rw [e, transposed_at]

theorem bxblk_at (c : Dev nD) (t : Fin cfg0.N) (g : Fin 3584) :
    bxblk m c t (ix2 (0 : Fin 1) g) = argBx m c (ix1 g) := by
  show V m c main_v2 (((cfg0.win 5).blk t).view.emb (ix2 (0 : Fin 1) g)) = _
  rw [bxRow_eq]
  have e : ((cfg0.win 5).blk t).view.emb (ix2 (0 : Fin 1) g) = ix2 (0 : Fin 1) g := by
    funext a; apply Fin.ext
    obtain ⟨-, -, ⟨e0, e1⟩, -⟩ := idx_whole t
    match a with
    | ⟨0, _⟩ => show win0_5.index t (0 : Fin 2) * 1 + 1 * 0 = 0; omega
    | ⟨1, _⟩ => show win0_5.index t (1 : Fin 2) * 3584 + 1 * g.val = g.val; omega
  rw [e, row_at]

theorem bhblk_at (c : Dev nD) (t : Fin cfg0.N) (g : Fin 3584) :
    bhblk m c t (ix2 (0 : Fin 1) g) = argBh m c (ix1 g) := by
  show V m c main_v3 (((cfg0.win 6).blk t).view.emb (ix2 (0 : Fin 1) g)) = _
  rw [bhRow_eq]
  have e : ((cfg0.win 6).blk t).view.emb (ix2 (0 : Fin 1) g) = ix2 (0 : Fin 1) g := by
    funext a; apply Fin.ext
    obtain ⟨-, -, -, ⟨e0, e1⟩⟩ := idx_whole t
    match a with
    | ⟨0, _⟩ => show win0_6.index t (0 : Fin 2) * 1 + 1 * 0 = 0; omega
    | ⟨1, _⟩ => show win0_6.index t (1 : Fin 2) * 3584 + 1 * g.val = g.val; omega
  rw [e, row_at]

/-! ## The block's pre-activations are the specification's -/

theorem blockPre_eq (c : Dev nD) (t : Fin cfg0.N) (p : Fin 256) (g : Fin 3584) :
    G (xblk m c t) (hblk m c t) (wxblk m c t) (whblk m c t) (bxblk m c t) (bhblk m c t) (ix2 p g)
      = gates m c (ix2 (rowOf t p) g) := by
  refine (blockPre_at (xblk m c t) (hblk m c t) (wxblk m c t) (bxblk m c t) (whblk m c t) (bhblk m c t) p g).trans ?_
  simp only [xblk_at, hblk_at, wxblk_at, whblk_at, bxblk_at, bhblk_at]
  rfl

end Cert.Cell.Kern

end
-- ==== Proof.KernelArrays.lean ====
/-
  The five arrays the kernel leaves.

  Each of the five results has a window of its own, and all five move the same way: grid point t writes back block t,
  rows 256·t … 256·t + 255 and all 512 columns, so index j of the block is index (256·t + j₀, j₁) of the array. What a
  point writes back is what the body stored — one store of the whole block, read where the block lies — and that is
  the specification's result there (the body's value at (p, q) is the specification's at (256·t + p, q)). Row r lies
  in the block of point r / 256, so the 64 blocks cover the array, and the array after the run is the specification's
  result everywhere.
-/
import proofs.«136796_j90065464197524_1_alg».proof.Proof.Gen.KernelIdeal.Value
import proofs.«136796_j90065464197524_1_alg».proof.Proof.KernelBlocks

noncomputable section

open scoped BigOperators

namespace Cert.Cell.Kern

open Cert.KernelIdeal Cert.KernelIdeal.Gen Idealize.ShloMosaic Idealize.ShloMosaic.TcCoe Idealize.ShloMosaic.ValueIdx
open Idealize.SL.Sem Cert.Cell
open Idealize.ShloMosaic.Pipeline (Dat)

variable (m : (ℓ : Loc nD τ sig) → Buf (Elt Ideal) ℓ)

/-- The offsets of every load and store of the body are zero. -/
theorem zero_offsets : (![0, 0] : Fin 2 → Nat) = fun _ => 0 := funext fun a => by fin_cases a <;> rfl

/-! ## What the body stores, as the specification's results on the block's rows -/

theorem newHidden_block (c : Dev nD) (t : Fin cfg0.N) (p : Fin 256) (q : Fin 512) :
    k0_pay7 (F := Ideal) (xblk m c t) (hblk m c t) (cblk m c t) (wxblk m c t) (bxblk m c t) (whblk m c t) (bhblk m c t) (ix2 p q)
      = newHidden (gates m c) (argC m c) (ix2 (rowOf t p) q) := by
  refine (newHidden_at (xblk m c t) (hblk m c t) (cblk m c t) (wxblk m c t) (whblk m c t) (bxblk m c t) (bhblk m c t) p q).trans ?_
  rw [newCell_at, blockPre_eq, blockPre_eq, blockPre_eq, blockPre_eq, cblk_at]
  rfl

theorem newCell_block (c : Dev nD) (t : Fin cfg0.N) (p : Fin 256) (q : Fin 512) :
    k0_pay6 (F := Ideal) (xblk m c t) (hblk m c t) (cblk m c t) (wxblk m c t) (bxblk m c t) (whblk m c t) (bhblk m c t) (ix2 p q)
      = newCell (gates m c) (argC m c) (ix2 (rowOf t p) q) := by
  refine (newCell_at (xblk m c t) (hblk m c t) (cblk m c t) (wxblk m c t) (whblk m c t) (bxblk m c t) (bhblk m c t) p q).trans ?_
  rw [blockPre_eq, blockPre_eq, blockPre_eq, cblk_at]
  rfl

theorem targetCell_block (c : Dev nD) (t : Fin cfg0.N) (p : Fin 256) (q : Fin 512) :
    k0_pay8 (F := Ideal) (xblk m c t) (hblk m c t) (cblk m c t) (wxblk m c t) (bxblk m c t) (whblk m c t) (bhblk m c t) (ix2 p q)
      = targetCell (gates m c) (argC m c) (ix2 (rowOf t p) q) := by
  refine (targetCell_at (xblk m c t) (hblk m c t) (cblk m c t) (wxblk m c t) (whblk m c t) (bxblk m c t) (bhblk m c t) p q).trans ?_
  rw [blockPre_eq, blockPre_eq, blockPre_eq, cblk_at]
  rfl

theorem outGate_block (c : Dev nD) (t : Fin cfg0.N) (p : Fin 256) (q : Fin 512) :
    k0_pay5 (F := Ideal) (xblk m c t) (hblk m c t) (wxblk m c t) (bxblk m c t) (whblk m c t) (bhblk m c t) (ix2 p q)
      = outGate (gates m c) (ix2 (rowOf t p) q) := by
  refine (outGate_at (xblk m c t) (hblk m c t) (wxblk m c t) (whblk m c t) (bxblk m c t) (bhblk m c t) p q).trans ?_
  rw [blockPre_eq]
  rfl

theorem decayRate_block (c : Dev nD) (t : Fin cfg0.N) (p : Fin 256) (q : Fin 512) :
    k0_pay1 (F := Ideal) (k0_pay3 (F := Ideal) (xblk m c t) (hblk m c t) (wxblk m c t) (bxblk m c t) (whblk m c t) (bhblk m c t))
        (Scalar.ofBits .f32 0x00000000#32)
        (k0_pay9 (F := Ideal) (xblk m c t) (hblk m c t) (wxblk m c t) (bxblk m c t) (whblk m c t) (bhblk m c t))
        (k0_pay10 (F := Ideal)) (ix2 p q)
      = decayRate (gates m c) (ix2 (rowOf t p) q) := by
  refine (decayRate_at (xblk m c t) (hblk m c t) (wxblk m c t) (whblk m c t) (bxblk m c t) (bhblk m c t) p q).trans ?_
  rw [blockPre_eq]
  rfl

/-! ## Where the five result windows put block t -/

theorem idx_results : ∀ t : Fin cfg0.N,
    (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Row r lies in the block of grid point r / 256. -/
theorem pointOf_lt (i : S16384x512.Idx) : (i 0).val / 256 < cfg0.N := by
  have hi0 : (i 0).val < 16384 := (i 0).isLt
  exact lt_of_lt_of_eq (by omega) N_0.symm

/-! ## The new hidden state (window 7) -/

theorem emb7 (t : Fin cfg0.N) (j : S256x512.Idx) :
    ((cfg0.win 7).blk t).view.emb j = ix2 (rowOf t (j 0)) (j 1) := by
  funext a; apply Fin.ext
  obtain ⟨⟨e0, e1⟩, -, -, -, -⟩ := idx_results t
  match a with
  | ⟨0, _⟩ => show win0_7.index t (0 : Fin 2) * 256 + 1 * (j 0).val = t.val * 256 + (j 0).val; omega
  | ⟨1, _⟩ => show win0_7.index t (1 : Fin 2) * 512 + 1 * (j 1).val = (j 1).val; omega

theorem newHidden_flushed (c : Dev nD) (t : Fin cfg0.N) :
    (dats m 0 c).flushed 7 t = ((cfg0.win 7).blk t).view.read (Elt Ideal) (newHidden (gates m c) (argC m c)) := by
  rw [Value.flushed7]
  unfold out0_7
  rw [View.canon_unit_zero zero_offsets]
  simp only [View.ld_unit_zero (S := S256x512) zero_offsets, View.ld_unit_zero (S := S512x3584) zero_offsets,
    View.ld_unit_zero (S := S1x3584) zero_offsets]
  funext j
  show k0_pay7 (F := Ideal) (xblk m c t) (hblk m c t) (cblk m c t) (wxblk m c t) (bxblk m c t) (whblk m c t) (bhblk m c t) j
    = newHidden (gates m c) (argC m c) (((cfg0.win 7).blk t).view.emb j)
  rw [emb7, eq_ix2 j]
  exact newHidden_block m c t (j 0) (j 1)

theorem mem_blk7 (t : Fin cfg0.N) (i : S16384x512.Idx) :
    i ∈ ((cfg0.win 7).blk t).view.set ↔ ∀ a : Fin 2, win0_7.index t a * S256x512.size a ≤ (i a).val
      ∧ (i a).val < win0_7.index t a * S256x512.size a + S256x512.size a := by
  show i ∈ ((View.whole main_v4_0).slice (win0_7.rect t)).set ↔ _
  rw [View.set_slice_whole, Rect.mem_set_unit]
  exact Iff.rfl

theorem cover7 (i : S16384x512.Idx) :
    ∃ t : Fin cfg0.N, (cfg0.win 7).flush t = true ∧ i ∈ ((cfg0.win 7).blk t).view.set := by
  have hi1 : (i 1).val < 512 := (i 1).isLt
  obtain ⟨⟨e0, e1⟩, -, -, -, -⟩ := idx_results ⟨(i 0).val / 256, pointOf_lt i⟩
  refine ⟨⟨(i 0).val / 256, pointOf_lt i⟩, flush0_7 _, ?_⟩
  rw [mem_blk7]
  intro a
  match a with
  | ⟨0, _⟩ =>
    show win0_7.index ⟨(i 0).val / 256, pointOf_lt i⟩ (0 : Fin 2) * 256 ≤ (i 0).val
      ∧ (i 0).val < win0_7.index ⟨(i 0).val / 256, pointOf_lt i⟩ (0 : Fin 2) * 256 + 256
    rw [e0]
    show (i 0).val / 256 * 256 ≤ (i 0).val ∧ (i 0).val < (i 0).val / 256 * 256 + 256
    omega
  | ⟨1, _⟩ =>
    show win0_7.index ⟨(i 0).val / 256, pointOf_lt i⟩ (1 : Fin 2) * 512 ≤ (i 1).val
      ∧ (i 1).val < win0_7.index ⟨(i 0).val / 256, pointOf_lt i⟩ (1 : Fin 2) * 512 + 512
    rw [e1]
    omega

theorem newHidden_final (c : Dev nD) : (dats m 0 c).arrAt 7 cfg0.N = newHidden (gates m c) (argC m c) :=
  (dats m 0 c).arrAt_eq_of_cover 7 (newHidden (gates m c) (argC m c)) (fun t _ => newHidden_flushed m c t) cover7

/-! ## The new cell state (window 8) -/

theorem emb8 (t : Fin cfg0.N) (j : S256x512.Idx) :
    ((cfg0.win 8).blk t).view.emb j = ix2 (rowOf t (j 0)) (j 1) := by
  funext a; apply Fin.ext
  obtain ⟨-, ⟨e0, e1⟩, -, -, -⟩ := idx_results t
  match a with
  | ⟨0, _⟩ => show win0_8.index t (0 : Fin 2) * 256 + 1 * (j 0).val = t.val * 256 + (j 0).val; omega
  | ⟨1, _⟩ => show win0_8.index t (1 : Fin 2) * 512 + 1 * (j 1).val = (j 1).val; omega

theorem newCell_flushed (c : Dev nD) (t : Fin cfg0.N) :
    (dats m 0 c).flushed 8 t = ((cfg0.win 8).blk t).view.read (Elt Ideal) (newCell (gates m c) (argC m c)) := by
  rw [Value.flushed8]
  unfold out0_8
  rw [View.canon_unit_zero zero_offsets]
  simp only [View.ld_unit_zero (S := S256x512) zero_offsets, View.ld_unit_zero (S := S512x3584) zero_offsets,
    View.ld_unit_zero (S := S1x3584) zero_offsets]
  funext j
  show k0_pay6 (F := Ideal) (xblk m c t) (hblk m c t) (cblk m c t) (wxblk m c t) (bxblk m c t) (whblk m c t) (bhblk m c t) j
    = newCell (gates m c) (argC m c) (((cfg0.win 8).blk t).view.emb j)
  rw [emb8, eq_ix2 j]
  exact newCell_block m c t (j 0) (j 1)

theorem mem_blk8 (t : Fin cfg0.N) (i : S16384x512.Idx) :
    i ∈ ((cfg0.win 8).blk t).view.set ↔ ∀ a : Fin 2, win0_8.index t a * S256x512.size a ≤ (i a).val
      ∧ (i a).val < win0_8.index t a * S256x512.size a + S256x512.size a := by
  show i ∈ ((View.whole main_v4_1).slice (win0_8.rect t)).set ↔ _
  rw [View.set_slice_whole, Rect.mem_set_unit]
  exact Iff.rfl

theorem cover8 (i : S16384x512.Idx) :
    ∃ t : Fin cfg0.N, (cfg0.win 8).flush t = true ∧ i ∈ ((cfg0.win 8).blk t).view.set := by
  have hi1 : (i 1).val < 512 := (i 1).isLt
  obtain ⟨-, ⟨e0, e1⟩, -, -, -⟩ := idx_results ⟨(i 0).val / 256, pointOf_lt i⟩
  refine ⟨⟨(i 0).val / 256, pointOf_lt i⟩, flush0_8 _, ?_⟩
  rw [mem_blk8]
  intro a
  match a with
  | ⟨0, _⟩ =>
    show win0_8.index ⟨(i 0).val / 256, pointOf_lt i⟩ (0 : Fin 2) * 256 ≤ (i 0).val
      ∧ (i 0).val < win0_8.index ⟨(i 0).val / 256, pointOf_lt i⟩ (0 : Fin 2) * 256 + 256
    rw [e0]
    show (i 0).val / 256 * 256 ≤ (i 0).val ∧ (i 0).val < (i 0).val / 256 * 256 + 256
    omega
  | ⟨1, _⟩ =>
    show win0_8.index ⟨(i 0).val / 256, pointOf_lt i⟩ (1 : Fin 2) * 512 ≤ (i 1).val
      ∧ (i 1).val < win0_8.index ⟨(i 0).val / 256, pointOf_lt i⟩ (1 : Fin 2) * 512 + 512
    rw [e1]
    omega

theorem newCell_final (c : Dev nD) : (dats m 0 c).arrAt 8 cfg0.N = newCell (gates m c) (argC m c) :=
  (dats m 0 c).arrAt_eq_of_cover 8 (newCell (gates m c) (argC m c)) (fun t _ => newCell_flushed m c t) cover8

/-! ## The target cell state (window 9) -/

theorem emb9 (t : Fin cfg0.N) (j : S256x512.Idx) :
    ((cfg0.win 9).blk t).view.emb j = ix2 (rowOf t (j 0)) (j 1) := by
  funext a; apply Fin.ext
  obtain ⟨-, -, ⟨e0, e1⟩, -, -⟩ := idx_results t
  match a with
  | ⟨0, _⟩ => show win0_9.index t (0 : Fin 2) * 256 + 1 * (j 0).val = t.val * 256 + (j 0).val; omega
  | ⟨1, _⟩ => show win0_9.index t (1 : Fin 2) * 512 + 1 * (j 1).val = (j 1).val; omega

theorem targetCell_flushed (c : Dev nD) (t : Fin cfg0.N) :
    (dats m 0 c).flushed 9 t = ((cfg0.win 9).blk t).view.read (Elt Ideal) (targetCell (gates m c) (argC m c)) := by
  rw [Value.flushed9]
  unfold out0_9
  rw [View.canon_unit_zero zero_offsets]
  simp only [View.ld_unit_zero (S := S256x512) zero_offsets, View.ld_unit_zero (S := S512x3584) zero_offsets,
    View.ld_unit_zero (S := S1x3584) zero_offsets]
  funext j
  show k0_pay8 (F := Ideal) (xblk m c t) (hblk m c t) (cblk m c t) (wxblk m c t) (bxblk m c t) (whblk m c t) (bhblk m c t) j
    = targetCell (gates m c) (argC m c) (((cfg0.win 9).blk t).view.emb j)
  rw [emb9, eq_ix2 j]
  exact targetCell_block m c t (j 0) (j 1)

theorem mem_blk9 (t : Fin cfg0.N) (i : S16384x512.Idx) :
    i ∈ ((cfg0.win 9).blk t).view.set ↔ ∀ a : Fin 2, win0_9.index t a * S256x512.size a ≤ (i a).val
      ∧ (i a).val < win0_9.index t a * S256x512.size a + S256x512.size a := by
  show i ∈ ((View.whole main_v4_2).slice (win0_9.rect t)).set ↔ _
  rw [View.set_slice_whole, Rect.mem_set_unit]
  exact Iff.rfl

theorem cover9 (i : S16384x512.Idx) :
    ∃ t : Fin cfg0.N, (cfg0.win 9).flush t = true ∧ i ∈ ((cfg0.win 9).blk t).view.set := by
  have hi1 : (i 1).val < 512 := (i 1).isLt
  obtain ⟨-, -, ⟨e0, e1⟩, -, -⟩ := idx_results ⟨(i 0).val / 256, pointOf_lt i⟩
  refine ⟨⟨(i 0).val / 256, pointOf_lt i⟩, flush0_9 _, ?_⟩
  rw [mem_blk9]
  intro a
  match a with
  | ⟨0, _⟩ =>
    show win0_9.index ⟨(i 0).val / 256, pointOf_lt i⟩ (0 : Fin 2) * 256 ≤ (i 0).val
      ∧ (i 0).val < win0_9.index ⟨(i 0).val / 256, pointOf_lt i⟩ (0 : Fin 2) * 256 + 256
    rw [e0]
    show (i 0).val / 256 * 256 ≤ (i 0).val ∧ (i 0).val < (i 0).val / 256 * 256 + 256
    omega
  | ⟨1, _⟩ =>
    show win0_9.index ⟨(i 0).val / 256, pointOf_lt i⟩ (1 : Fin 2) * 512 ≤ (i 1).val
      ∧ (i 1).val < win0_9.index ⟨(i 0).val / 256, pointOf_lt i⟩ (1 : Fin 2) * 512 + 512
    rw [e1]
    omega

theorem targetCell_final (c : Dev nD) : (dats m 0 c).arrAt 9 cfg0.N = targetCell (gates m c) (argC m c) :=
  (dats m 0 c).arrAt_eq_of_cover 9 (targetCell (gates m c) (argC m c)) (fun t _ => targetCell_flushed m c t) cover9

/-! ## The output gate (window 10) -/

theorem emb10 (t : Fin cfg0.N) (j : S256x512.Idx) :
    ((cfg0.win 10).blk t).view.emb j = ix2 (rowOf t (j 0)) (j 1) := by
  funext a; apply Fin.ext
  obtain ⟨-, -, -, ⟨e0, e1⟩, -⟩ := idx_results t
  match a with
  | ⟨0, _⟩ => show win0_10.index t (0 : Fin 2) * 256 + 1 * (j 0).val = t.val * 256 + (j 0).val; omega
  | ⟨1, _⟩ => show win0_10.index t (1 : Fin 2) * 512 + 1 * (j 1).val = (j 1).val; omega

theorem outGate_flushed (c : Dev nD) (t : Fin cfg0.N) :
    (dats m 0 c).flushed 10 t = ((cfg0.win 10).blk t).view.read (Elt Ideal) (outGate (gates m c)) := by
  rw [Value.flushed10]
  unfold out0_10
  rw [View.canon_unit_zero zero_offsets]
  simp only [View.ld_unit_zero (S := S256x512) zero_offsets, View.ld_unit_zero (S := S512x3584) zero_offsets,
    View.ld_unit_zero (S := S1x3584) zero_offsets]
  funext j
  show k0_pay5 (F := Ideal) (xblk m c t) (hblk m c t) (wxblk m c t) (bxblk m c t) (whblk m c t) (bhblk m c t) j
    = outGate (gates m c) (((cfg0.win 10).blk t).view.emb j)
  rw [emb10, eq_ix2 j]
  exact outGate_block m c t (j 0) (j 1)

theorem mem_blk10 (t : Fin cfg0.N) (i : S16384x512.Idx) :
    i ∈ ((cfg0.win 10).blk t).view.set ↔ ∀ a : Fin 2, win0_10.index t a * S256x512.size a ≤ (i a).val
      ∧ (i a).val < win0_10.index t a * S256x512.size a + S256x512.size a := by
  show i ∈ ((View.whole main_v4_3).slice (win0_10.rect t)).set ↔ _
  rw [View.set_slice_whole, Rect.mem_set_unit]
  exact Iff.rfl

theorem cover10 (i : S16384x512.Idx) :
    ∃ t : Fin cfg0.N, (cfg0.win 10).flush t = true ∧ i ∈ ((cfg0.win 10).blk t).view.set := by
  have hi1 : (i 1).val < 512 := (i 1).isLt
  obtain ⟨-, -, -, ⟨e0, e1⟩, -⟩ := idx_results ⟨(i 0).val / 256, pointOf_lt i⟩
  refine ⟨⟨(i 0).val / 256, pointOf_lt i⟩, flush0_10 _, ?_⟩
  rw [mem_blk10]
  intro a
  match a with
  | ⟨0, _⟩ =>
    show win0_10.index ⟨(i 0).val / 256, pointOf_lt i⟩ (0 : Fin 2) * 256 ≤ (i 0).val
      ∧ (i 0).val < win0_10.index ⟨(i 0).val / 256, pointOf_lt i⟩ (0 : Fin 2) * 256 + 256
    rw [e0]
    show (i 0).val / 256 * 256 ≤ (i 0).val ∧ (i 0).val < (i 0).val / 256 * 256 + 256
    omega
  | ⟨1, _⟩ =>
    show win0_10.index ⟨(i 0).val / 256, pointOf_lt i⟩ (1 : Fin 2) * 512 ≤ (i 1).val
      ∧ (i 1).val < win0_10.index ⟨(i 0).val / 256, pointOf_lt i⟩ (1 : Fin 2) * 512 + 512
    rw [e1]
    omega

theorem outGate_final (c : Dev nD) : (dats m 0 c).arrAt 10 cfg0.N = outGate (gates m c) :=
  (dats m 0 c).arrAt_eq_of_cover 10 (outGate (gates m c)) (fun t _ => outGate_flushed m c t) cover10

/-! ## The decay rate (window 11) -/

theorem emb11 (t : Fin cfg0.N) (j : S256x512.Idx) :
    ((cfg0.win 11).blk t).view.emb j = ix2 (rowOf t (j 0)) (j 1) := by
  funext a; apply Fin.ext
  obtain ⟨-, -, -, -, ⟨e0, e1⟩⟩ := idx_results t
  match a with
  | ⟨0, _⟩ => show win0_11.index t (0 : Fin 2) * 256 + 1 * (j 0).val = t.val * 256 + (j 0).val; omega
  | ⟨1, _⟩ => show win0_11.index t (1 : Fin 2) * 512 + 1 * (j 1).val = (j 1).val; omega

theorem decayRate_flushed (c : Dev nD) (t : Fin cfg0.N) :
    (dats m 0 c).flushed 11 t = ((cfg0.win 11).blk t).view.read (Elt Ideal) (decayRate (gates m c)) := by
  rw [Value.flushed11]
  unfold out0_11
  rw [View.canon_unit_zero zero_offsets]
  simp only [View.ld_unit_zero (S := S256x512) zero_offsets, View.ld_unit_zero (S := S512x3584) zero_offsets,
    View.ld_unit_zero (S := S1x3584) zero_offsets]
  funext j
  show k0_pay1 (F := Ideal) (k0_pay3 (F := Ideal) (xblk m c t) (hblk m c t) (wxblk m c t) (bxblk m c t) (whblk m c t) (bhblk m c t))
        (Scalar.ofBits .f32 0x00000000#32)
        (k0_pay9 (F := Ideal) (xblk m c t) (hblk m c t) (wxblk m c t) (bxblk m c t) (whblk m c t) (bhblk m c t))
        (k0_pay10 (F := Ideal)) j
    = decayRate (gates m c) (((cfg0.win 11).blk t).view.emb j)
  rw [emb11, eq_ix2 j]
  exact decayRate_block m c t (j 0) (j 1)

theorem mem_blk11 (t : Fin cfg0.N) (i : S16384x512.Idx) :
    i ∈ ((cfg0.win 11).blk t).view.set ↔ ∀ a : Fin 2, win0_11.index t a * S256x512.size a ≤ (i a).val
      ∧ (i a).val < win0_11.index t a * S256x512.size a + S256x512.size a := by
  show i ∈ ((View.whole main_v4_4).slice (win0_11.rect t)).set ↔ _
  rw [View.set_slice_whole, Rect.mem_set_unit]
  exact Iff.rfl

theorem cover11 (i : S16384x512.Idx) :
    ∃ t : Fin cfg0.N, (cfg0.win 11).flush t = true ∧ i ∈ ((cfg0.win 11).blk t).view.set := by
  have hi1 : (i 1).val < 512 := (i 1).isLt
  obtain ⟨-, -, -, -, ⟨e0, e1⟩⟩ := idx_results ⟨(i 0).val / 256, pointOf_lt i⟩
  refine ⟨⟨(i 0).val / 256, pointOf_lt i⟩, flush0_11 _, ?_⟩
  rw [mem_blk11]
  intro a
  match a with
  | ⟨0, _⟩ =>
    show win0_11.index ⟨(i 0).val / 256, pointOf_lt i⟩ (0 : Fin 2) * 256 ≤ (i 0).val
      ∧ (i 0).val < win0_11.index ⟨(i 0).val / 256, pointOf_lt i⟩ (0 : Fin 2) * 256 + 256
    rw [e0]
    show (i 0).val / 256 * 256 ≤ (i 0).val ∧ (i 0).val < (i 0).val / 256 * 256 + 256
    omega
  | ⟨1, _⟩ =>
    show win0_11.index ⟨(i 0).val / 256, pointOf_lt i⟩ (1 : Fin 2) * 512 ≤ (i 1).val
      ∧ (i 1).val < win0_11.index ⟨(i 0).val / 256, pointOf_lt i⟩ (1 : Fin 2) * 512 + 512
    rw [e1]
    omega

theorem decayRate_final (c : Dev nD) : (dats m 0 c).arrAt 11 cfg0.N = decayRate (gates m c) :=
  (dats m 0 c).arrAt_eq_of_cover 11 (decayRate (gates m c)) (fun t _ => decayRate_flushed m c t) cover11

/-! ## The run, with each result array at the specification's result -/

theorem run (ρ : Dev nD → PrngReg) :
    θ_run defs (onTc (τ := τ) (main (F := Ideal))) ⟨m, fun _ => 0, ρ⟩ fun r => ∀ c : Dev nD,
      r.2.mem ((c : Thread nD τ).loc main_v4_0) = newHidden (gates m c) (argC m c)
      ∧ r.2.mem ((c : Thread nD τ).loc main_v4_1) = newCell (gates m c) (argC m c)
      ∧ r.2.mem ((c : Thread nD τ).loc main_v4_2) = targetCell (gates m c) (argC m c)
      ∧ r.2.mem ((c : Thread nD τ).loc main_v4_3) = outGate (gates m c)
      ∧ r.2.mem ((c : Thread nD τ).loc main_v4_4) = decayRate (gates m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (newHidden_final m c),
      (h c).2.1.trans (newCell_final m c),
      (h c).2.2.1.trans (targetCell_final m c),
      (h c).2.2.2.1.trans (outGate_final m c),
      (h c).2.2.2.2.1.trans (decayRate_final m c),
      (h c).2.2.2.2.2⟩)
    (Value.run_blocks m ρ)

end Cert.Cell.Kern

end
-- ==== Proof.lean ====
/-
  A Pallas kernel for one step of a continuous-time LSTM cell against its jnp reference: equal results over the
  extended reals.

  Both programs compute, for a batch of 16384 rows, the 3584 = 7 · 512 pre-activations
      pre[r, g] = (∑ₖ x[r, k] · Wx[g, k] + bx[g]) + (∑ₖ h[r, k] · Wh[g, k] + bh[g])
  and from their seven bands of 512 columns the new hidden state, the new cell state, the target cell state, the output
  gate and the decay rate (Proof/CellSpec.lean states the five as functions of the arguments, index by index). The
  reference does this on whole arrays; the kernel on 64 blocks of 256 rows, with the transposed weights and the biases
  resident.

  The two sides apply the same operations in the same grouping, so no law of arithmetic is needed and the arguments'
  finiteness is never used. What has to be bridged is form:
  * a matrix product into a zero accumulator and the host's dot product are the same sum over the contracted axis
    (Proof/LibMatmulAt.lean, Proof/KernelPre.lean; the reference's by its generated read-at-an-index lemmas);
  * the kernel's logistic operation is the host's quotient 1 / (1 + e^(-w)), and the two spellings of softplus agree
    because their guard w - 0 ≠ w - 0 is never true and 0 - |w| is -|w| (Proof/CellSpec.lean);
  * block t of each result array is what grid point t stored, and the blocks cover the array (Proof/KernelBlocks.lean,
    Proof/KernelArrays.lean over the generated blockwise value leg).
  The reference side is Proof/RefCell.lean. The three frames are the generated ones (the reference's is its generated
  run with the results dropped), and the idealization rewrote nothing, so there is nothing to preserve.
-/
import proofs.«136796_j90065464197524_1_alg».proof.Defs
import proofs.«136796_j90065464197524_1_alg».proof.Proof.Gen.Kernel
import proofs.«136796_j90065464197524_1_alg».proof.Proof.Gen.Kernel.Skeleton
import proofs.«136796_j90065464197524_1_alg».proof.Proof.Gen.Kernel.Launch
import proofs.«136796_j90065464197524_1_alg».proof.Proof.Gen.Kernel.Points
import proofs.«136796_j90065464197524_1_alg».proof.Proof.Gen.Kernel.Frame
import proofs.«136796_j90065464197524_1_alg».proof.Proof.Gen.KernelIdeal
import proofs.«136796_j90065464197524_1_alg».proof.Proof.Gen.KernelIdeal.Skeleton
import proofs.«136796_j90065464197524_1_alg».proof.Proof.Gen.KernelIdeal.Launch
import proofs.«136796_j90065464197524_1_alg».proof.Proof.Gen.KernelIdeal.Points
import proofs.«136796_j90065464197524_1_alg».proof.Proof.Gen.KernelIdeal.Frame
import proofs.«136796_j90065464197524_1_alg».proof.Proof.Gen.ReferenceIdeal
import proofs.«136796_j90065464197524_1_alg».proof.Proof.Gen.Pre_finite_inputs
import proofs.«136796_j90065464197524_1_alg».proof.Proof.Gen.KernelIdeal.Value
import proofs.«136796_j90065464197524_1_alg».proof.Proof.Gen.ReferenceIdeal.Run
import proofs.«136796_j90065464197524_1_alg».proof.Proof.Gen.ReferenceIdeal.Read
import proofs.«136796_j90065464197524_1_alg».proof.Proof.CellSpec
import proofs.«136796_j90065464197524_1_alg».proof.Proof.RefCell
import proofs.«136796_j90065464197524_1_alg».proof.Proof.KernelArrays
import Idealize.ShloMosaic.Adequacy
import Idealize.ShloMosaic.Init

noncomputable section

namespace Cert.Proof

open Idealize.ShloMosaic Idealize.ShloMosaic.TcCoe Idealize.SL.Sem Cert.Cell

namespace CellClaims

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results forgotten. -/
theorem frame_reference : Cert.frame_ReferenceIdeal := fun m ρ _ =>
  (θ_run Cert.ReferenceIdeal.defs _ _).mono (fun _ h c => (h c).2.2.2.2.2)
    (Cert.ReferenceIdeal.Value.run (F := Ideal) m ρ)

/-- The idealization rewrote no operation. -/
theorem preserves : Cert.preserves_Kernel_KernelIdeal := trivial

/-- From memories that agree on the seven arguments the kernel ends with each result array at the specification's
    result of its arguments (`Kern.run`), and the reference with each result at its composed term, which is the
    specification's result of ITS arguments (`Ref.*_eq`): the same arrays once the arguments are identified. -/
theorem algebraic : Cert.algebraic_KernelIdeal_ReferenceIdeal := by
  intro m ρ m' ρ' _ hagree
  refine ⟨_, _, _, _, _, Kern.run m ρ, ?_⟩
  refine (θ_run Cert.ReferenceIdeal.defs _ _).mono (fun _ h c => ?_)
    (Cert.ReferenceIdeal.Value.run (F := Ideal) m' ρ')
  obtain ⟨h0, h1, h2, h3, h4, hkept⟩ := h c
  obtain ⟨a0, a1, a2, a3, a4, a5, a6⟩ := hagree c
  refine ⟨?_, ?_, ?_, ?_, ?_, hkept⟩
  · rw [h0, Cert.ReferenceIdeal.Read.val_main_v53_eq, Ref.newHidden_eq, a0, a1, a2, a3, a4, a5, a6]
  · rw [h1, Cert.ReferenceIdeal.Read.val_main_v51_eq, Ref.newCell_eq, a0, a1, a2, a3, a4, a5, a6]
  · rw [h2, Cert.ReferenceIdeal.Read.val_main_v56_eq, Ref.targetCell_eq, a0, a1, a2, a3, a4, a5, a6]
  · rw [h3, Cert.ReferenceIdeal.Read.val_main_v36_eq, Ref.outGate_eq, a0, a1, a3, a4, a5, a6]
  · rw [h4, Cert.ReferenceIdeal.Read.val_main_v57_eq, Ref.decayRate_eq, a0, a1, a3, a4, a5, a6]

end CellClaims

theorem claim : Cert.Claim := ⟨Cert.Kernel.Gen.facts, Cert.KernelIdeal.Gen.facts, Cert.ReferenceIdeal.Gen.facts, Cert.Pre_finite_inputs.Gen.facts,
  CellClaims.frame_kernel, CellClaims.frame_kernelIdeal, CellClaims.frame_reference, CellClaims.preserves, CellClaims.algebraic⟩

end Cert.Proof

end
